-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S1x1, .f32⟩
  | .hbm, ⟨5, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1, .f32⟩
  | .local _ .vmem, ⟨5, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v17 : BitVec 1 := Scalar.cmpi .eq arg0 c31_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel

variable [Facts₀]

class Facts : Prop extends Facts₀ where

variable [Facts]
-- ==== Proof.Pieces.lean ====
/-
  What each control case of the body leaves behind, as the stored values of the loaded blocks.

  The body has three cases.  At the first grid point it stores the zero block into the accumulator, reads it back and
  stores the update over it; at the middle points it stores the update over what the accumulator held; at the last
  point it does the same and then stores the scaled accumulator into the output block.  Every load and store goes
  through the whole buffer, so a buffer read back after one covering store holds that store's value.
-/
import proofs.«139655_j87522843559533_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the accumulator ends at the update of the zero block. -/
theorem acc_first (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S8192x128 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

/-- A middle point: the accumulator ends at the update of what it held. -/
theorem acc_middle (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S8192x128 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- The last point: the accumulator ends at the update of what it held, -/
theorem acc_last (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- and the output block at the scaled value of that accumulator. -/
theorem out_last (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs : Vec F S1x1 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S8192x128) hz,
    View.ld_unit_zero (S := S1x1) hz]

end Cert.KernelIdeal.Pieces

end
-- ==== Proof.LibFinSum.lean ====
/-
  Finite sums re-indexed: a sum over the `m * n` flat positions of a row-major `m × n` table is the sum over its rows of
  the sum along each row (entry `(i, j)` sits at position `i * n + j`), and a sum over the multi-indices of a rank-1
  shape is the sum over its one coordinate.  Only commutativity and associativity of the addition are used, so the
  statements hold in every commutative additive monoid, the extended reals with their infinities included.
-/
import Idealize.ShloMosaic.Lib.ValueIdx

open Idealize.ShloMosaic Idealize.ShloMosaic.ValueIdx

namespace Cert.LibFinSum

/-- Entry `(i, j)` of an `m × n` table sits inside its `m * n` flat positions. -/
theorem coord_lt {m n i j : ℕ} (hi : i < m) (hj : j < n) : i * n + j < m * n :=
  calc i * n + j < i * n + n := by omega
    _ = (i + 1) * n := by ring
    _ ≤ m * n := Nat.mul_le_mul_right n hi

/-- A sum over the flat positions of an `m × n` table, row by row. -/
theorem sum_fin_mul {M : Type*} [AddCommMonoid M] (m n : ℕ) (f : Fin (m * n) → M) :
    ∑ k, f k = ∑ i : Fin m, ∑ j : Fin n, f ⟨i.val * n + j.val, coord_lt i.isLt j.isLt⟩ := by
  rw [← (finProdFinEquiv (m := m) (n := n)).sum_comp f, Fintype.sum_prod_type]
  refine Finset.sum_congr rfl fun i _ => Finset.sum_congr rfl fun j _ => congrArg f (Fin.ext ?_)
  show j.val + n * i.val = i.val * n + j.val
  ring

/-- The same when the number of positions is only known to equal `m * n` (a literal such as `33554432 = 262144 * 128`). -/
theorem sum_fin_of_eq_mul {M : Type*} [AddCommMonoid M] {N : ℕ} (m n : ℕ) (h : N = m * n) (f : Fin N → M) :
    ∑ k, f k = ∑ i : Fin m, ∑ j : Fin n, f ⟨i.val * n + j.val, h ▸ coord_lt i.isLt j.isLt⟩ := by
  subst h
  exact sum_fin_mul m n f

/-- A rank-1 multi-index is its one coordinate. -/
def idxEquiv1 {n : ℕ} : (⟨1, ![n]⟩ : Shape).Idx ≃ Fin n where
  toFun j := j 0
  invFun := ix1
  left_inv j := (eq_ix1 j).symm
  right_inv _ := rfl

/-- A sum over the multi-indices of a rank-1 shape is the sum over its coordinate. -/
theorem sum_idx1 {M : Type*} [AddCommMonoid M] {n : ℕ} (f : (⟨1, ![n]⟩ : Shape).Idx → M) :
    ∑ i, f i = ∑ k : Fin n, f (ix1 k) :=
  (idxEquiv1.symm.sum_comp f).symm

end Cert.LibFinSum
-- ==== Proof.SumSplit.lean ====
/-
  The flat array as 32 blocks of 8192 rows of 128 lanes.

  The sum over the `33554432 = 32 * 8192 * 128` entries of a flat array is the sum over 32 blocks, of 8192 rows each, of
  128 lanes each, entry `(t, r, l)` sitting at flat position `(t * 8192 + r) * 128 + l`: the row-by-row splitting of a
  flat sum, applied twice.
-/
import proofs.«139655_j87522843559533_1_alg».proof.Proof.LibFinSum

open Idealize.ShloMosaic Idealize.ShloMosaic.ValueIdx Cert.LibFinSum

namespace Cert.SumSplit

/-- The flat position of lane `l` of row `r` of block `t`. -/
abbrev flat (t : Fin 32) (r : Fin 8192) (l : Fin 128) : Fin 33554432 :=
  ⟨(t.val * 8192 + r.val) * 128 + l.val, by have := t.isLt; have := r.isLt; have := l.isLt; omega⟩

/-- A sum over the 33554432 flat positions: over the 32 blocks, the 8192 rows of each, the 128 lanes of each row. -/
theorem sum_flat {M : Type*} [AddCommMonoid M] (g : Fin 33554432 → M) :
    ∑ k, g k = ∑ t : Fin 32, ∑ r : Fin 8192, ∑ l : Fin 128, g (flat t r l) := by
  rw [sum_fin_of_eq_mul 262144 128 (by norm_num) g]
  rw [sum_fin_of_eq_mul 32 8192 (by norm_num)
    (fun R : Fin 262144 => ∑ l : Fin 128, g ⟨R.val * 128 + l.val, by have := R.isLt; have := l.isLt; omega⟩)]

end Cert.SumSplit
-- ==== Proof.Spec.lean ====
/-
  What both programs compute, as one function of the two flat argument arrays.

  The 33554432 entries are read as 32 blocks of 8192 rows of 128 lanes; entry `(t, r, l)` is at flat position
  `(t * 8192 + r) * 128 + l`.  `blockSum a b t` is the sum over block `t` of the products `a · b`, `total` the sum of
  the 32 block sums, and `mean` that total times `2⁻²⁵`.  The sum of all 33554432 products, in any order, is `total`
  (`sum_all_eq_total`): addition on the extended reals is commutative and associative, so no finiteness is needed.
-/
import Idealize.ShloMosaic.Lib.ValueIdx
import Idealize.ShloMosaic.PureOps.Ideal
import proofs.«139655_j87522843559533_1_alg».proof.Proof.SumSplit

noncomputable section

namespace Cert.Spec

open Idealize.ShloMosaic Idealize.ShloMosaic.ValueIdx Cert.SumSplit Cert.LibFinSum

/-- The flat position of lane `l` of row `r` of block `t`. -/
abbrev pos (t : ℕ) (ht : t < 32) (r : Fin 8192) (l : Fin 128) : Fin 33554432 :=
  ⟨(t * 8192 + r.val) * 128 + l.val, by have := r.isLt; have := l.isLt; omega⟩

/-- The sum of the products over block `t` (zero past the last block). -/
def blockSum (a b : FVec Ideal ⟨1, ![33554432]⟩ .f32) (t : ℕ) : EReal :=
  if ht : t < 32 then ∑ r : Fin 8192, ∑ l : Fin 128, a (ix1 (pos t ht r l)) * b (ix1 (pos t ht r l)) else 0

theorem blockSum_of_lt (a b : FVec Ideal ⟨1, ![33554432]⟩ .f32) (t : ℕ) (ht : t < 32) :
    blockSum a b t = ∑ r : Fin 8192, ∑ l : Fin 128, a (ix1 (pos t ht r l)) * b (ix1 (pos t ht r l)) :=
  dif_pos ht

/-- The sum of the 32 block sums. -/
def total (a b : FVec Ideal ⟨1, ![33554432]⟩ .f32) : EReal := ∑ t ∈ Finset.range 32, blockSum a b t

/-- The mean of the products: the total times `2⁻²⁵`, as a rank-0 array. -/
def mean (a b : FVec Ideal ⟨1, ![33554432]⟩ .f32) : FVec Ideal ⟨0, ![]⟩ .f32 :=
  fun _ => total a b * Ideal.ofBits .f32 0x33000000#32

/-- The sum of all the products is the sum of the block sums. -/
theorem sum_all_eq_total (a b : FVec Ideal ⟨1, ![33554432]⟩ .f32) :
    ∑ j : (⟨1, ![33554432]⟩ : Shape).Idx, a j * b j = total a b := by
  rw [sum_idx1 (fun j => a j * b j), sum_flat (fun k => a (ix1 k) * b (ix1 k))]
  unfold total
  rw [← Fin.sum_univ_eq_sum_range (fun t => blockSum a b t) 32]
  refine Finset.sum_congr rfl fun t _ => ?_
  rw [blockSum_of_lt a b t.val t.isLt]

end Cert.Spec

end
-- ==== Proof.Blocks.lean ====
/-
  What the two input windows hold at a grid point, in terms of the flat argument arrays.

  Before the region each flat argument of 33554432 entries is viewed as a 262144 × 128 table (same row-major
  positions).  Window `w` at grid point `t` holds rows `8192 t … 8192 t + 8191` of that table, so its entry `(r, l)`
  is the flat entry at position `(8192 t + r) * 128 + l`.
-/
import proofs.«139655_j87522843559533_1_alg».proof.Proof.Gen.KernelIdeal.Frame
import proofs.«139655_j87522843559533_1_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The first window's block at point `t`, and the second's, at their literal type. -/
abbrev lhsBlock (c : Dev nD) (t : Fin cfg0.N) : Vec F S8192x128 .f32 := iblk m c 0 t
abbrev rhsBlock (c : Dev nD) (t : Fin cfg0.N) : Vec F S8192x128 .f32 := iblk m c 1 t

/-- The two flat arguments, at their literal type. -/
abbrev lhsArg (c : Dev nD) : Vec F S33554432 .f32 := m ((c : Thread nD τ).loc main_arg0)
abbrev rhsArg (c : Dev nD) : Vec F S33554432 .f32 := m ((c : Thread nD τ).loc main_arg1)

/-- The region finds the first table at the first argument re-laid, -/
theorem table0_eq (c : Dev nD) :
    (V m c main_v0 : Vec F S262144x128 .f32) = shapeCast S262144x128 (lhsArg m c) shapeCasts_S33554432_S262144x128 := by
  show StableHlo.after hostOps0 (fun b => m (c, b)) (Proc.devRef .tc main_v0) = _
  after_results
  rfl

/-- and the second table at the second argument re-laid. -/
theorem table1_eq (c : Dev nD) :
    (V m c main_v1 : Vec F S262144x128 .f32) = shapeCast S262144x128 (rhsArg m c) shapeCasts_S33554432_S262144x128 := by
  show StableHlo.after hostOps0 (fun b => m (c, b)) (Proc.devRef .tc main_v1) = _
  after_results
  rfl

/-- Both windows' block index at point `t` is `(t, 0)`. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

/-- A re-laid flat array read at `(R, l)` is the flat array at `R * 128 + l`. -/
theorem table_apply (x : Vec F S33554432 .f32) (j : S262144x128.Idx) (k : Fin 33554432)
    (hk : k.val = (j 0).val * 128 + (j 1).val) :
    shapeCast S262144x128 x shapeCasts_S33554432_S262144x128 j = x (ix1 k) :=
  shapeCast_apply x _ j (ix1 k) (by
    rw [Shape.rowMajor_val_one, Shape.rowMajor_val_two]
    exact hk)

/-- Entry `(r, l)` of the first window's block at point `t` is the first argument at the flat position of `(t, r, l)`. -/
theorem lhsBlock_apply (c : Dev nD) (t : Fin cfg0.N) (ht : t.val < 32) (r : Fin 8192) (l : Fin 128) :
    lhsBlock m c t (ix2 r l) = lhsArg m c (ix1 (Spec.pos t.val ht r l)) := by
  unfold lhsBlock iblk
  rw [View.read_apply]
  show V m c main_v0 (((cfg0.win 0).blk t).view.emb (ix2 r l)) = _
  rw [table0_eq]
  refine table_apply _ _ _ ?_
  show (t.val * 8192 + r.val) * 128 + l.val
    = (win0_0.index t 0 * 8192 + 1 * r.val) * 128 + (win0_0.index t 1 * 128 + 1 * l.val)
  rw [(index0 t).1, (index0 t).2]
  omega

/-- The same for the second window and the second argument. -/
theorem rhsBlock_apply (c : Dev nD) (t : Fin cfg0.N) (ht : t.val < 32) (r : Fin 8192) (l : Fin 128) :
    rhsBlock m c t (ix2 r l) = rhsArg m c (ix1 (Spec.pos t.val ht r l)) := by
  unfold rhsBlock iblk
  rw [View.read_apply]
  show V m c main_v1 (((cfg0.win 1).blk t).view.emb (ix2 r l)) = _
  rw [table1_eq]
  refine table_apply _ _ _ ?_
  show (t.val * 8192 + r.val) * 128 + l.val
    = (win0_1.index t 0 * 8192 + 1 * r.val) * 128 + (win0_1.index t 1 * 128 + 1 * l.val)
  rw [(index1 t).1, (index1 t).2]
  omega

end Cert.KernelIdeal.Blocks

end
-- ==== Proof.Steps.lean ====
/-
  The accumulator and the output block after each grid point, as stored values of the point's input blocks.

  After the first point the accumulator holds the update of the zero block by the point's two blocks; after every
  later point the update of what the point before left; after the last point the output block holds the scaled value
  of the accumulator as that point leaves it.
-/
import proofs.«139655_j87522843559533_1_alg».proof.Proof.Pieces
import proofs.«139655_j87522843559533_1_alg».proof.Proof.Blocks

noncomputable section

open Idealize.ShloMosaic Idealize.ShloMosaic.TcCoe Idealize.SL.Sem

namespace Cert.KernelIdeal.Steps

open Cert.KernelIdeal Cert.KernelIdeal.Gen Cert.KernelIdeal.Blocks

variable {F : FTy → Type} [FloatOps F]
variable (m : (ℓ : Loc nD τ sig) → Buf (Elt F) ℓ)

/-- What the accumulator holds after point `n`. -/
abbrev accAfter (c : Dev nD) (n : ℕ) (h : n < cfg0.N) : Vec F S1x1 .f32 := (outsAt0 m c n h).2

/-- What the output block holds after point `n`. -/
abbrev outAfter (c : Dev nD) (n : ℕ) (h : n < cfg0.N) : Vec F S1x1 .f32 := (outsAt0 m c n h).1

theorem acc_first (c : Dev nD) (t : Fin cfg0.N) (h0 : t.val % 32 = 0) (h1 : ¬t.val % 32 = 31) :
    accAfter m c t.val t.isLt = k0_pay2 (lhsBlock m c t) (rhsBlock m c t) (k0_pay1 (F := F)) := by
  unfold accAfter
  rw [outsAt0_A m c t h0 h1]
  dsimp only
  exact Pieces.acc_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (lhsBlock m c t) (rhsBlock m c t)

theorem acc_middle (c : Dev nD) (t : Fin cfg0.N) (h0 : ¬t.val % 32 = 0) (h1 : ¬t.val % 32 = 31) :
    accAfter m c t.val t.isLt = k0_pay2 (lhsBlock m c t) (rhsBlock m c t)
      (accAfter m c (t.val - 1) (Nat.lt_of_le_of_lt (Nat.sub_le _ _) t.isLt)) := by
  unfold accAfter
  rw [outsAt0_B m c t h0 h1]
  dsimp only
  exact Pieces.acc_middle c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (lhsBlock m c t) (rhsBlock m c t)
    (outsAt0 m c (t.val - 1) (Nat.lt_of_le_of_lt (Nat.sub_le _ _) t.isLt)).2

theorem acc_last (c : Dev nD) (t : Fin cfg0.N) (h0 : ¬t.val % 32 = 0) (h1 : t.val % 32 = 31) :
    accAfter m c t.val t.isLt = k0_pay2 (lhsBlock m c t) (rhsBlock m c t)
      (accAfter m c (t.val - 1) (Nat.lt_of_le_of_lt (Nat.sub_le _ _) t.isLt)) := by
  unfold accAfter
  rw [outsAt0_C m c t h0 h1]
  dsimp only
  exact Pieces.acc_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (lhsBlock m c t) (rhsBlock m c t)
    (outsAt0 m c (t.val - 1) (Nat.lt_of_le_of_lt (Nat.sub_le _ _) t.isLt)).2

theorem out_last (c : Dev nD) (t : Fin cfg0.N) (h0 : ¬t.val % 32 = 0) (h1 : t.val % 32 = 31) :
    outAfter m c t.val t.isLt = k0_pay3 (accAfter m c t.val t.isLt) := by
  rw [acc_last m c t h0 h1]
  unfold outAfter accAfter
  rw [outsAt0_C m c t h0 h1]
  dsimp only
  exact Pieces.out_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (lhsBlock m c t) (rhsBlock m c t)
    (outsAt0 m c (t.val - 1) (Nat.lt_of_le_of_lt (Nat.sub_le _ _) t.isLt)).2

end Cert.KernelIdeal.Steps

end
-- ==== Proof.Payloads.lean ====
/-
  The body's three stored values, read at the ideal instance.

  * the reset value is the zero block;
  * the accumulator's update adds, to what the accumulator held, the sum over the 8192 rows of the block of the sum
    over the 128 lanes of the products of the two input blocks (the lane reduction, the unit axis put back, the row
    reduction, the unit axis put back, then the addition);
  * the result is the accumulator times the constant `0x33000000`.
-/
import proofs.«139655_j87522843559533_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen

/-- The index of lane `l` over row `r` of the lane reduction is `(r, l)`. -/
theorem lane_index (h : S8192x128.Reduces [1] S8192) (r : Fin 8192) (l : Fin 128) :
    h.lift (ix1 r) l = ix2 r l :=
  funext fun c => Fin.ext (match c with | ⟨0, _⟩ => rfl | ⟨1, _⟩ => rfl)

/-- The index of row `r` over the one entry of the row reduction is `(r, 0)`. -/
theorem row_index (h : S8192x1.Reduces [0] S1) (u : Fin 1) (r : Fin 8192) :
    h.lift (ix1 u) r = ix2 r u :=
  funext fun c => Fin.ext (match c with | ⟨0, _⟩ => rfl | ⟨1, _⟩ => rfl)

/-- The reset value: zero at every entry. -/
theorem reset_apply (j : S1x1.Idx) : k0_pay1 (F := Ideal) j = 0 := by
  unfold k0_pay1
  simp only [shapeCast_self]
  exact Ideal.ofBits_zero_f32

/-- A lane reduction from zero, read at row `r`: the sum over the 128 lanes of that row. -/
theorem lanes_apply (v : FVec Ideal S8192x128 .f32) (hφ : FKind.Formats .f32)
    (hacc : (0x00000000#32 : BitVec 32) = 0x00000000#32) (r : Fin 8192) :
    multiReduction .add [1] S8192 v 0x00000000#32 reduces_S8192x128_S8192 hφ hacc (ix1 r)
      = ∑ l : Fin 128, v (ix2 r l) :=
  (Ideal.multiReduction_add_single v _ reduces_S8192x128_S8192 hφ hacc (ix1 r)).trans
    (Finset.sum_congr rfl fun l _ => congrArg v (lane_index _ r l))

/-- A row reduction from zero, read at its one entry: the sum over the 8192 rows. -/
theorem rows_apply (v : FVec Ideal S8192x1 .f32) (hφ : FKind.Formats .f32)
    (hacc : (0x00000000#32 : BitVec 32) = 0x00000000#32) (u : Fin 1) :
    multiReduction .add [0] S1 v 0x00000000#32 reduces_S8192x1_S1 hφ hacc (ix1 u)
      = ∑ r : Fin 8192, v (ix2 r u) :=
  (Ideal.multiReduction_add_single v _ reduces_S8192x1_S1 hφ hacc (ix1 u)).trans
    (Finset.sum_congr rfl fun r _ => congrArg v (row_index _ u r))

/-- The update: the accumulator plus the sum of the products over the rows and lanes of the block. -/
theorem update_apply (x0 x1 : Vec Ideal S8192x128 .f32) (acc : Vec Ideal S1x1 .f32) (j : S1x1.Idx) :
    k0_pay2 (F := Ideal) x0 x1 acc j = acc j + ∑ r : Fin 8192, ∑ l : Fin 128, x0 (ix2 r l) * x1 (ix2 r l) := by
  unfold k0_pay2
  simp only [shapeCast_self]
  rw [addf_apply]
  congr 1
  refine (shapeCast_apply _ shapeCasts_S1_S1x1 j (ix1 (0 : Fin 1)) ?_).trans ?_
  · rw [Shape.rowMajor_val_one, Shape.rowMajor_val_two]
    have h0 : (j 0).val < 1 := (j 0).isLt
    have h1 : (j 1).val < 1 := (j 1).isLt
    show (0 : ℕ) = (j 0).val * 1 + (j 1).val
    omega
  refine (rows_apply _ _ _ 0).trans ?_
  refine Finset.sum_congr rfl fun r _ => ?_
  refine (shapeCast_apply _ shapeCasts_S8192_S8192x1 (ix2 r (0 : Fin 1)) (ix1 r) ?_).trans ?_
  · rw [Shape.rowMajor_val_one, Shape.rowMajor_val_two]
    show r.val = r.val * 1 + 0
    omega
  exact lanes_apply _ _ _ r

/-- The result: the accumulator times the scale constant. -/
theorem result_apply (acc : Vec Ideal S1x1 .f32) (j : S1x1.Idx) :
    k0_pay3 (F := Ideal) acc j = acc j * Ideal.ofBits .f32 0x33000000#32 := by
  unfold k0_pay3
  rfl

end Cert.KernelIdeal.Payloads

end
-- ==== Proof.Accum.lean ====
/-
  The accumulator is the running sum of the block sums.

  At the ideal instance the update adds to the accumulator the sum of the products over the point's two blocks, which
  is the block sum of the flat arguments at that point.  The first point starts from zero.  So after point `n` the
  accumulator holds the sum of the block sums of points `0 … n` (induction on the point), and after the last point the
  output block holds the sum of all 32 block sums times `2⁻²⁵`: the mean.
-/
import proofs.«139655_j87522843559533_1_alg».proof.Proof.Steps
import proofs.«139655_j87522843559533_1_alg».proof.Proof.Payloads

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.KernelIdeal.Steps

variable (m : (ℓ : Loc nD τ sig) → Buf (Elt Ideal) ℓ)

/-- The sum of the products over the two blocks of point `t` is the block sum of the flat arguments. -/
theorem block_sum (c : Dev nD) (t : Fin cfg0.N) (ht : t.val < 32) :
    ∑ r : Fin 8192, ∑ l : Fin 128, lhsBlock m c t (ix2 r l) * rhsBlock m c t (ix2 r l)
      = Spec.blockSum (lhsArg m c) (rhsArg m c) t.val := by
  rw [Spec.blockSum_of_lt _ _ _ ht]
  refine Finset.sum_congr rfl fun r _ => Finset.sum_congr rfl fun l _ => ?_
  rw [lhsBlock_apply m c t ht r l, rhsBlock_apply m c t ht r l]

/-- After point `n` the accumulator holds the sum of the block sums of points `0 … n`. -/
theorem acc_eq (c : Dev nD) : ∀ (n : ℕ) (h : n < cfg0.N) (j : S1x1.Idx),
    accAfter m c n h j = ∑ t ∈ Finset.range (n + 1), Spec.blockSum (lhsArg m c) (rhsArg m c) t
  | 0, h, j => by
    refine (congrFun (acc_first m c ⟨0, h⟩ rfl (by show ¬(0 % 32 = 31); omega)) j).trans ?_
    rw [Payloads.update_apply, Payloads.reset_apply, zero_add, Finset.sum_range_one]
    exact block_sum m c ⟨0, h⟩ (by show (0 : ℕ) < 32; omega)
  | n + 1, h, j => by
    have hN : cfg0.N = 32 := N_0
    have hlt : n + 1 < 32 := hN ▸ h
    have h0 : ¬(⟨n + 1, h⟩ : Fin cfg0.N).val % 32 = 0 := by dsimp only; omega
    have step : accAfter m c (n + 1) h
        = k0_pay2 (lhsBlock m c ⟨n + 1, h⟩) (rhsBlock m c ⟨n + 1, h⟩) (accAfter m c n (Nat.lt_of_succ_lt h)) := by
      by_cases h1 : (⟨n + 1, h⟩ : Fin cfg0.N).val % 32 = 31
      · exact acc_last m c ⟨n + 1, h⟩ h0 h1
      · exact acc_middle m c ⟨n + 1, h⟩ h0 h1
    refine (congrFun step j).trans ?_
    rw [Payloads.update_apply, acc_eq c n (Nat.lt_of_succ_lt h) j, Finset.sum_range_succ _ (n + 1)]
    exact congrArg _ (block_sum m c ⟨n + 1, h⟩ hlt)

/-- After the last point the output block holds the mean of the products. -/
theorem out_eq (c : Dev nD) (h : 31 < cfg0.N) (j : S1x1.Idx) :
    outAfter m c 31 h j = Spec.mean (lhsArg m c) (rhsArg m c) ix0 := by
  refine (congrFun (out_last m c ⟨31, h⟩ (by show ¬(31 % 32 = 0); omega) (by show 31 % 32 = 31; rfl)) j).trans ?_
  rw [Payloads.result_apply]
  show accAfter m c 31 h j * _ = Spec.total _ _ * _
  rw [acc_eq m c 31 h j]
  rfl

end Cert.KernelIdeal.Accum

end
-- ==== Proof.Result.lean ====
/-
  The kernel's run, read: its result is the mean of the products.

  The output window has one block, the whole 1 × 1 array, written back once, after the last grid point, when it holds
  the mean (the accumulated total times `2⁻²⁵`).  So the 1 × 1 array ends at the mean, and the line after the region,
  which views that array as a rank-0 one, leaves the mean in the result.
-/
import proofs.«139655_j87522843559533_1_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Steps

variable (m : (ℓ : Loc nD τ sig) → Buf (Elt Ideal) ℓ) (ρ : Dev nD → PrngReg)

/-- The last grid point. -/
abbrev lastPt : Fin cfg0.N := ⟨31, by rw [show cfg0.N = 32 from N_0]; decide⟩

/-- The 1 × 1 array holding the mean. -/
abbrev meanTable (c : Dev nD) : Buf (Elt Ideal) ((c : Thread nD τ).loc main_v2) :=
  fun _ => Spec.mean (lhsArg m c) (rhsArg m c) ix0

/-- The one write-back, after the last point, writes the mean. -/
theorem flushed_eq (c : Dev nD) (t : Fin cfg0.N) (hf : (cfg0.win 2).flush t = true) :
    (dats m 0 c).flushed 2 t = ((cfg0.win 2).blk t).view.read (Elt Ideal) (meanTable m c) := by
  have hN : cfg0.N = 32 := N_0
  have h31 : t.val = 31 := by have := (flush0_2 t).mp hf; have := t.isLt; omega
  obtain rfl : t = lastPt := Fin.ext h31
  show (cfg0.win 2).cut (grid0.coords lastPt) ((dats m 0 c).after 2 lastPt) = _
  rw [after0_2]
  funext y
  rw [View.read_apply]
  exact Accum.out_eq m c _ y

/-- So the 1 × 1 array ends holding the mean: the last point's block is the whole array. -/
theorem table_final (c : Dev nD) : (dats m 0 c).arrAt 2 cfg0.N = meanTable m c :=
  (dats m 0 c).arrAt_eq_of_cover 2 (meanTable m c) (flushed_eq m c) fun i =>
    ⟨lastPt, (flush0_2 lastPt).mpr rfl, by
      show i ∈ ((View.whole main_v2).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPt 0 * win0_2.size 0 ≤ (i 0 : Nat)
          ∧ (i 0 : Nat) < win0_2.index lastPt 0 * win0_2.size 0 + win0_2.xsize (grid0.coords lastPt) 0
        rw [show win0_2.index lastPt 0 * win0_2.size 0 = 0 from by decide +kernel,
          show win0_2.xsize (grid0.coords lastPt) 0 = 1 from by decide +kernel]
        omega
      | ⟨1, _⟩ =>
        show win0_2.index lastPt 1 * win0_2.size 1 ≤ (i 1 : Nat)
          ∧ (i 1 : Nat) < win0_2.index lastPt 1 * win0_2.size 1 + win0_2.xsize (grid0.coords lastPt) 1
        rw [show win0_2.index lastPt 1 * win0_2.size 1 = 0 from by decide +kernel,
          show win0_2.xsize (grid0.coords lastPt) 1 = 1 from by decide +kernel]
        omega⟩

/-- The line after the region leaves the mean in the rank-0 result. -/
theorem tail_eq (c : Dev nD) :
    Pipeline.afterTail₀ cfgs (dats m) 0 (V0 m) [hostOps1] c main_v3 = Spec.mean (lhsArg m c) (rhsArg m c) := by
  unfold Pipeline.afterTail₀
  show StableHlo.after hostOps1 _ (Proc.devRef .tc main_v3) = _
  after_results
  rw [(Pipeline.withArrays_arr spec0 launch0.win.arr_inj c _ _ 2).trans (table_final m c)]
  rfl

/-- The run, read: the result at the mean of the products of the two arguments, the arguments unchanged. -/
theorem run : θ_run defs (onTc (τ := τ) (main (F := Ideal))) ⟨m, fun _ => 0, ρ⟩ fun r => ∀ c : Dev nD,
      r.2.mem ((c.tc : Thread nD τ).loc main_v3) = Spec.mean (lhsArg m c) (rhsArg m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.Scale.lean ====
/-
  The two scale constants.

  The kernel multiplies its accumulated sum by the f32 pattern `0x33000000`, which denotes `2⁻²⁵ = 1 / 33554432`
  exactly; the reference divides its sum by the pattern `0x4C000000`, which denotes `2²⁵ = 33554432`.  On the
  extended reals the quotient by a nonzero real is the product with its reciprocal, at the infinities too, so the two
  scalings are one function of the sum.
-/
import Idealize.ShloMosaic.PureOps.Ideal

noncomputable section

namespace Cert.Scale

open Idealize.ShloMosaic

/-- The reference's divisor denotes the number of entries, `33554432 = 2²⁵`. -/
theorem ofBits_count : Ideal.ofBits .f32 0x4C000000#32 = ((33554432 : ℝ) : EReal) := by
  simp [Ideal.ofBits, Ideal.ieee, -EReal.coe_mul]; norm_num

/-- The kernel's factor denotes its reciprocal, `2⁻²⁵`. -/
theorem ofBits_inv_count : Ideal.ofBits .f32 0x33000000#32 = ((1 / 33554432 : ℝ) : EReal) := by
  simp [Ideal.ofBits, Ideal.ieee, -EReal.coe_mul]; norm_num

/-- Multiplying by `2⁻²⁵` is dividing by `2²⁵`, on every extended real. -/
theorem mul_inv_count_eq_div (x : EReal) :
    x * Ideal.ofBits .f32 0x33000000#32 = Ideal.div x (Ideal.ofBits .f32 0x4C000000#32) := by
  rw [ofBits_count, ofBits_inv_count, Ideal.div_coe (by norm_num : (33554432 : ℝ) ≠ 0)]

end Cert.Scale

end
-- ==== Proof.RefValue.lean ====
/-
  The reference computes the mean of the products.

  Its result is the quotient by `2²⁵` of zero plus the sum, over all 33554432 entries, of the products of the two
  arguments.  That sum is the sum of the 32 block sums, and the quotient by `2²⁵` is the product with `2⁻²⁵`.
-/
import proofs.«139655_j87522843559533_1_alg».proof.Proof.Gen.ReferenceIdeal.Read
import proofs.«139655_j87522843559533_1_alg».proof.Proof.Spec
import proofs.«139655_j87522843559533_1_alg».proof.Proof.Scale
import Idealize.ShloMosaic.PureOps.Ideal.Laws

noncomputable section

open Idealize.ShloMosaic

namespace Cert.ReferenceIdeal.RefValue

open Cert.ReferenceIdeal Cert.ReferenceIdeal.Gen Cert.ReferenceIdeal.Read

/-- The reference's result, as a function of its two arguments, is the mean of their products. -/
theorem result_eq (a b : (⟨S33554432, .f32⟩ : BufTy).Contents (Elt Ideal)) :
    val_main_v2 (F := Ideal) a b = Spec.mean a b := by
  funext i
  rw [val_main_v2_apply, val_main_v1_apply, val_main_cst_0_apply, val_main_cst_apply]
  simp only [val_main_v0_apply, Ideal.hostDivf_def, Ideal.ofBits_def, Ideal.mulf_def, Ideal.ofBits_zero_f32, zero_add]
  rw [Spec.sum_all_eq_total, ← Scale.mul_inv_count_eq_div]
  rfl

end Cert.ReferenceIdeal.RefValue

end
-- ==== Proof.lean ====
/-
  The mean of the products of two flat arrays of 33554432 = 2²⁵ entries: a gridded kernel against `jnp.mean (t * l)`.

  The kernel views each argument as a 262144 × 128 table and walks it in 32 blocks of 8192 rows.  At each grid point it
  adds to a 1 × 1 accumulator (reset to zero at the first point) the sum over the block's rows of the sum over the
  lanes of the products; after the last point it stores the accumulator times `2⁻²⁵`.  The reference multiplies the
  flat arrays, sums all the products from zero and divides by `2²⁵`.

  Over the extended reals both are one function of the arguments (`Spec.mean`): the sum of all products is the sum
  of the 32 block sums, each a sum over rows of sums over lanes (addition is commutative and associative, also at the
  infinities, so the grouping and the order do not matter and no finiteness of the inputs is used), and dividing by
  the real `2²⁵` is multiplying by `2⁻²⁵` on every extended real.

  The modules: `LibFinSum` (a flat sum row by row), `SumSplit` (the flat sum as blocks, rows and lanes), `Spec` (the common function), `Scale` (the two
  constants), `Payloads` (the body's stored values at the ideal instance), `Pieces` and `Steps` (what each control
  case leaves in the accumulator and the output), `Blocks` (a window's block in terms of the flat argument), `Accum`
  (the accumulator is the running sum of block sums: induction on the grid point), `Result` (the kernel's run read
  back), `RefValue` (the reference's term is the same function).  The ideal pass rewrote nothing, so the
  idealization claim is trivially true.
-/
import proofs.«139655_j87522843559533_1_alg».proof.Defs
import proofs.«139655_j87522843559533_1_alg».proof.Proof.Gen.Kernel
import proofs.«139655_j87522843559533_1_alg».proof.Proof.Gen.Kernel.Frame
import proofs.«139655_j87522843559533_1_alg».proof.Proof.Gen.KernelIdeal
import proofs.«139655_j87522843559533_1_alg».proof.Proof.Gen.KernelIdeal.Frame
import proofs.«139655_j87522843559533_1_alg».proof.Proof.Gen.ReferenceIdeal
import proofs.«139655_j87522843559533_1_alg».proof.Proof.Gen.ReferenceIdeal.Run
import proofs.«139655_j87522843559533_1_alg».proof.Proof.Gen.ReferenceIdeal.Read
import proofs.«139655_j87522843559533_1_alg».proof.Proof.Gen.Pre_finite_inputs
import proofs.«139655_j87522843559533_1_alg».proof.Proof.Result
import proofs.«139655_j87522843559533_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and keeps its arguments. -/
theorem frame_kernel : Cert.frame_Kernel := fun m ρ _ => Cert.Kernel.Gen.frame m ρ

/-- So does its reading at the ideal instance. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the mean of the products of the (agreeing) arguments. -/
theorem algebraic : Cert.algebraic_KernelIdeal_ReferenceIdeal := by
  intro m ρ m' ρ' _ hagree
  refine ⟨fun c => Cert.Spec.mean (Cert.KernelIdeal.Blocks.lhsArg m c) (Cert.KernelIdeal.Blocks.rhsArg m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
